-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x1 : Shape := ⟨2, ![1000000, 1]⟩
abbrev S1x1 : Shape := ⟨2, ![1, 1]⟩
abbrev S1 : Shape := ⟨1, ![1]⟩
abbrev S2x32000000 : Shape := ⟨2, ![2, 32000000]⟩
abbrev S1000000 : Shape := ⟨1, ![1000000]⟩
abbrev S_ : Shape := ⟨0, ![]⟩

class Facts : Prop where
  bcast_S_S1000000x1 : S_.BroadcastsInDim S1000000x1 (![] : Fin 0 → Fin S1000000x1.rank)
  reducesTo_S1000000x1_S_d0_1 : S1000000x1.ReducesTo [0, 1] S_
  h_S_ : 0 < S_.numel
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S1000000x1 .f32) (main_arg1 : FVec F S1x1 .f32) (main_arg2 : FVec F S1 .f32) (main_arg3 : IVec S2x32000000 32) (main_arg4 : IVec S1000000 32) : IVec S_ 1 :=
  let main_v0 : FVec F S1000000x1 .f32 := Host.absf main_arg0
  let main_cst : FVec F S_ .f32 := constant S_ .f32 0x7F800000#32
  let main_v1 : FVec F S1000000x1 .f32 := broadcastInDim S1000000x1 ![] bcast_S_S1000000x1 main_cst
  let main_v2 : IVec S1000000x1 1 := cmpf .olt main_v0 main_v1
  let main_c : IVec S_ 1 := constantI S_ 1 1#1
  let main_v3 : IVec S_ 1 := (fun x v => Host.reduce IntOp.andi x v reducesTo_S1000000x1_S_d0_1 h_S_) main_v2 main_c
  let main_v4 : FVec F S1x1 .f32 := Host.absf main_arg1
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S1000000x1 : Shape := ⟨2, ![1000000, 1]⟩
abbrev S1x1 : Shape := ⟨2, ![1, 1]⟩
abbrev S1 : Shape := ⟨1, ![1]⟩
abbrev S2x32000000 : Shape := ⟨2, ![2, 32000000]⟩
abbrev S1000000 : Shape := ⟨1, ![1000000]⟩
abbrev S1x32000000 : Shape := ⟨2, ![1, 32000000]⟩
abbrev S32000000 : Shape := ⟨1, ![32000000]⟩
abbrev S_ : Shape := ⟨0, ![]⟩
abbrev S32000000x1 : Shape := ⟨2, ![32000000, 1]⟩
abbrev S1000448x1 : Shape := ⟨2, ![1000448, 1]⟩
abbrev S1024x1 : Shape := ⟨2, ![1024, 1]⟩
abbrev S1024x2 : Shape := ⟨2, ![1024, 2]⟩
abbrev S1024x1024 : Shape := ⟨2, ![1024, 1024]⟩

abbrev nBuf : Space → Nat
  | .hbm => 31
  | .vmem => 8
  | .smem => 0
  | _ => 0

abbrev bufTy : (tb : Table) → Fin (tcTables nBuf tb) → BufTy
  | .hbm, ⟨0, _⟩ => ⟨S1000000x1, .f32⟩
  | .hbm, ⟨1, _⟩ => ⟨S1x1, .f32⟩
  | .hbm, ⟨2, _⟩ => ⟨S1, .f32⟩
  | .hbm, ⟨3, _⟩ => ⟨S2x32000000, .i32⟩
  | .hbm, ⟨4, _⟩ => ⟨S1000000, .i32⟩
  | .hbm, ⟨5, _⟩ => ⟨S1x32000000, .i32⟩
  | .hbm, ⟨6, _⟩ => ⟨S32000000, .i32⟩
  | .hbm, ⟨7, _⟩ => ⟨S1x32000000, .i32⟩
  | .hbm, ⟨8, _⟩ => ⟨S32000000, .i32⟩
  | .hbm, ⟨9, _⟩ => ⟨S_, .i32⟩
  | .hbm, ⟨10, _⟩ => ⟨S32000000, .i32⟩
  | .hbm, ⟨11, _⟩ => ⟨S32000000, .i1⟩
  | .hbm, ⟨12, _⟩ => ⟨S_, .i32⟩
  | .hbm, ⟨13, _⟩ => ⟨S32000000, .i32⟩
  | .hbm, ⟨14, _⟩ => ⟨S32000000, .i32⟩
  | .hbm, ⟨15, _⟩ => ⟨S32000000, .i32⟩
  | .hbm, ⟨16, _⟩ => ⟨S32000000x1, .i32⟩
  | .hbm, ⟨17, _⟩ => ⟨S32000000x1, .f32⟩
  | .hbm, ⟨18, _⟩ => ⟨S_, .f32⟩
  | .hbm, ⟨19, _⟩ => ⟨S1000000x1, .f32⟩
  | .hbm, ⟨20, _⟩ => ⟨S32000000x1, .i32⟩
  | .hbm, ⟨21, _⟩ => ⟨S1000000x1, .f32⟩
  | .hbm, ⟨22, _⟩ => ⟨S_, .i32⟩
  | .hbm, ⟨23, _⟩ => ⟨S_, .f32⟩
  | .hbm, ⟨24, _⟩ => ⟨S1000448x1, .f32⟩
  | .hbm, ⟨25, _⟩ => ⟨S1000000x1, .i32⟩
  | .hbm, ⟨26, _⟩ => ⟨S_, .i32⟩
  | .hbm, ⟨27, _⟩ => ⟨S_, .i32⟩
  | .hbm, ⟨28, _⟩ => ⟨S1000448x1, .i32⟩
  | .hbm, ⟨29, _⟩ => ⟨S1x1, .f32⟩
  | .hbm, ⟨30, _⟩ => ⟨S1024x1, .f32⟩
  | .local _ .vmem, ⟨0, _⟩ => ⟨S1024x1, .f32⟩
  | .local _ .vmem, ⟨1, _⟩ => ⟨S1024x1, .f32⟩
  | .local _ .vmem, ⟨2, _⟩ => ⟨S1024x1, .i32⟩
  | .local _ .vmem, ⟨3, _⟩ => ⟨S1024x1, .i32⟩
  | .local _ .vmem, ⟨4, _⟩ => ⟨S1x1, .f32⟩
  | .local _ .vmem, ⟨5, _⟩ => ⟨S1x1, .f32⟩
  | .local _ .vmem, ⟨6, _⟩ => ⟨S1024x1, .f32⟩
  | .local _ .vmem, ⟨7, _⟩ => ⟨S1024x2, .f32⟩
  | _, _ => ⟨S1000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_call1_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![977], ![false]⟩

def k0_cond2 (i : grid0.Coords) : BitVec 1 :=
  let arg0 : BitVec 32 := BitVec.ofNat 32 (i 0).val
  let c976_i32 : BitVec 32 := 976#32
  let v25 : BitVec 1 := Scalar.cmpi .eq arg0 c976_i32
  let v26 : BitVec 32 := Scalar.extui v25
  let c0_i32_12 : BitVec 32 := 0#32
  let v27 : BitVec 1 := Scalar.cmpi .ne v26 c0_i32_12
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  slices_S2x32000000_S1x32000000_0_0 : S2x32000000.Slices ![0, 0] S1x32000000
  shapeCasts_S1x32000000_S32000000 : S1x32000000.ShapeCasts S32000000
  slices_S2x32000000_S1x32000000_1_0 : S2x32000000.Slices ![1, 0] S1x32000000
  bcast_S_S32000000 : S_.BroadcastsInDim S32000000 (![] : Fin 0 → Fin S32000000.rank)
  bcast_S32000000_S32000000x1_0 : S32000000.BroadcastsInDim S32000000x1 (![0] : Fin 1 → Fin S32000000x1.rank)
  bcast_S_S1000000x1 : S_.BroadcastsInDim S1000000x1 (![] : Fin 0 → Fin S1000000x1.rank)
  pads_S1000000x1_S1000448x1_04480_000 : S1000000x1.Pads (![0, 0] : Fin 2 → Nat) ![448, 0] ![0, 0] S1000448x1
  h_S_ : 0 < S_.numel
  shapeCasts_S1000000_S1000000x1 : S1000000.ShapeCasts S1000000x1
  shapeCasts_S1_S1x1 : S1.ShapeCasts S1x1
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x1024_d1_w32 : S1024x1024.Iotas .tc 32 [1]
  broadcasts_S1024x1_S1024x1024 : S1024x1.Broadcasts S1024x1024
  bitsLt_bf16_f32 : FTy.bits .bf16 < FTy.bits .f32
  concatenates_S1024x1_S1024x1_S1024x2_d1 : Shape.Concatenates [S1024x1, S1024x1] S1024x2 1
  slices_S1024x2_o0_0_S1024x1 : S1024x2.Slices ![0, 0] S1024x1
  slices_S1024x2_o0_1_S1024x1 : S1024x2.Slices ![0, 1] S1024x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  gather_S1000000x1_S32000000x1_S32000000x1_1_0_n_n_0_1_11_wf : GatherDims.WF S1000000x1 S32000000x1 S32000000x1 [1] [0] [] [0] [] 1 ![1, 1]
  scatter_S1000000x1_S32000000x1_S32000000x1_1_0_0_1_wf : ScatterDims.WF S1000000x1 S32000000x1 S32000000x1 [1] [0] [0] 1
  dot_S1024x1024_S1024x2_S1024x2_0_0_1_1_n_n_wf : DotDims.WF S1024x1024 S1024x2 S1024x2 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S1000448x1.size a
  hwx0_0 : ∀ i : grid0.Coords, EltTy.bits .f32 = 32 ∨ (Rect.block (s := S1000448x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S1000448x1.size a
  hwx0_1 : ∀ i : grid0.Coords, EltTy.bits .i32 = 32 ∨ (Rect.block (s := S1000448x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S1024x1.size a
  hwx0_4 : ∀ i : grid0.Coords, EltTy.bits .f32 = 32 ∨ (Rect.block (s := S1024x1) S1024x1.size (cc0_transform_4 i) (hinb0_4 i)).WholeWords (EltTy.packing .f32)

variable [Facts₀]

def gather_S1000000x1_S32000000x1_S32000000x1_1_0_n_n_0_1_11 : GatherDims S1000000x1 S32000000x1 S32000000x1 where
  offsetDims := [1]
  collapsedSliceDims := [0]
  operandBatchingDims := []
  startIndicesBatchingDims := []
  startIndexMap := [0]
  indexVectorDim := 1
  sliceSizes := ![1, 1]
  wf := gather_S1000000x1_S32000000x1_S32000000x1_1_0_n_n_0_1_11_wf
def scatter_S1000000x1_S32000000x1_S32000000x1_1_0_0_1 : ScatterDims S1000000x1 S32000000x1 S32000000x1 where
  updateWindowDims := [1]
  insertedWindowDims := [0]
  scatterDimsToOperandDims := [0]
  indexVectorDim := 1
  wf := scatter_S1000000x1_S32000000x1_S32000000x1_1_0_0_1_wf
def dot_S1024x1024_S1024x2_S1024x2_0_0_1_1_n_n : DotDims S1024x1024 S1024x2 S1024x2 where
  lhsContracting := [0]
  rhsContracting := [0]
  lhsNonContracting := [1]
  rhsNonContracting := [1]
  lhsBatch := []
  rhsBatch := []
  wf := dot_S1024x1024_S1024x2_S1024x2_0_0_1_1_n_n_wf

abbrev win0_0 : Pipeline.Window sig grid0 :=
  Pipeline.Window.ofSpec (Memref.whole main_v14) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1024x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1000000x1 : Shape := ⟨2, ![1000000, 1]⟩
abbrev S1x1 : Shape := ⟨2, ![1, 1]⟩
abbrev S1 : Shape := ⟨1, ![1]⟩
abbrev S2x32000000 : Shape := ⟨2, ![2, 32000000]⟩
abbrev S1000000 : Shape := ⟨1, ![1000000]⟩
abbrev S1x32000000 : Shape := ⟨2, ![1, 32000000]⟩
abbrev S32000000 : Shape := ⟨1, ![32000000]⟩
abbrev S_ : Shape := ⟨0, ![]⟩
abbrev S32000000x1 : Shape := ⟨2, ![32000000, 1]⟩
abbrev S1024x1 : Shape := ⟨2, ![1024, 1]⟩
abbrev S1024 : Shape := ⟨1, ![1024]⟩

abbrev nBuf : Space → Nat
  | .hbm => 45
  | .vmem => 0
  | .smem => 0
  | _ => 0

abbrev bufTy : (tb : Table) → Fin (tcTables nBuf tb) → BufTy
  | .hbm, ⟨0, _⟩ => ⟨S1000000x1, .f32⟩
  | .hbm, ⟨1, _⟩ => ⟨S1x1, .f32⟩
  | .hbm, ⟨2, _⟩ => ⟨S1, .f32⟩
  | .hbm, ⟨3, _⟩ => ⟨S2x32000000, .i32⟩
  | .hbm, ⟨4, _⟩ => ⟨S1000000, .i32⟩
  | .hbm, ⟨5, _⟩ => ⟨S1x32000000, .i32⟩
  | .hbm, ⟨6, _⟩ => ⟨S32000000, .i32⟩
  | .hbm, ⟨7, _⟩ => ⟨S1x32000000, .i32⟩
  | .hbm, ⟨8, _⟩ => ⟨S32000000, .i32⟩
  | .hbm, ⟨9, _⟩ => ⟨S_, .i32⟩
  | .hbm, ⟨10, _⟩ => ⟨S32000000, .i32⟩
  | .hbm, ⟨11, _⟩ => ⟨S32000000, .i1⟩
  | .hbm, ⟨12, _⟩ => ⟨S_, .i32⟩
  | .hbm, ⟨13, _⟩ => ⟨S32000000, .i32⟩
  | .hbm, ⟨14, _⟩ => ⟨S32000000, .i32⟩
  | .hbm, ⟨15, _⟩ => ⟨S32000000, .i32⟩
  | .hbm, ⟨16, _⟩ => ⟨S32000000x1, .i32⟩
  | .hbm, ⟨17, _⟩ => ⟨S32000000x1, .f32⟩
  | .hbm, ⟨18, _⟩ => ⟨S_, .f32⟩
  | .hbm, ⟨19, _⟩ => ⟨S1000000x1, .f32⟩
  | .hbm, ⟨20, _⟩ => ⟨S32000000x1, .i32⟩
  | .hbm, ⟨21, _⟩ => ⟨S1000000x1, .f32⟩
  | .hbm, ⟨22, _⟩ => ⟨S_, .f32⟩
  | .hbm, ⟨23, _⟩ => ⟨S1000000x1, .f32⟩
  | .hbm, ⟨24, _⟩ => ⟨S1000000x1, .f32⟩
  | .hbm, ⟨25, _⟩ => ⟨S_, .f32⟩
  | .hbm, ⟨26, _⟩ => ⟨S1024x1, .f32⟩
  | .hbm, ⟨27, _⟩ => ⟨S1000000x1, .i32⟩
  | .hbm, ⟨28, _⟩ => ⟨S1024x1, .f32⟩
  | .hbm, ⟨29, _⟩ => ⟨S_, .f32⟩
  | .hbm, ⟨30, _⟩ => ⟨S1000000, .f32⟩
  | .hbm, ⟨31, _⟩ => ⟨S_, .f32⟩
  | .hbm, ⟨32, _⟩ => ⟨S1024, .f32⟩
  | .hbm, ⟨33, _⟩ => ⟨S1000000x1, .i32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1024x1, .f32⟩
  | .hbm, ⟨39, _⟩ => ⟨S1024x1, .f32⟩
  | .hbm, ⟨40, _⟩ => ⟨S1x1, .f32⟩
  | .hbm, ⟨41, _⟩ => ⟨S1024x1, .f32⟩
  | .hbm, ⟨42, _⟩ => ⟨S1x1, .f32⟩
  | .hbm, ⟨43, _⟩ => ⟨S1024x1, .f32⟩
  | .hbm, ⟨44, _⟩ => ⟨S1024x1, .f32⟩
  | _, _ => ⟨S1000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  slices_S2x32000000_S1x32000000_0_0 : S2x32000000.Slices ![0, 0] S1x32000000
  shapeCasts_S1x32000000_S32000000 : S1x32000000.ShapeCasts S32000000
  slices_S2x32000000_S1x32000000_1_0 : S2x32000000.Slices ![1, 0] S1x32000000
  bcast_S_S32000000 : S_.BroadcastsInDim S32000000 (![] : Fin 0 → Fin S32000000.rank)
  bcast_S32000000_S32000000x1_0 : S32000000.BroadcastsInDim S32000000x1 (![0] : Fin 1 → Fin S32000000x1.rank)
  bcast_S_S1000000x1 : S_.BroadcastsInDim S1000000x1 (![] : Fin 0 → Fin S1000000x1.rank)
  bcast_S_S1024x1 : S_.BroadcastsInDim S1024x1 (![] : Fin 0 → Fin S1024x1.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S_S1024 : S_.BroadcastsInDim S1024 (![] : Fin 0 → Fin S1024.rank)
  bcast_S1024_S1024x1_0 : S1024.BroadcastsInDim S1024x1 (![0] : Fin 1 → Fin S1024x1.rank)
  transposes_S1x1_S1x1_1_0 : S1x1.Transposes [1, 0] S1x1
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  gather_S1000000x1_S32000000x1_S32000000x1_1_0_n_n_0_1_11_wf : GatherDims.WF S1000000x1 S32000000x1 S32000000x1 [1] [0] [] [0] [] 1 ![1, 1]
  scatter_S1000000x1_S32000000x1_S32000000x1_1_0_0_1_wf : ScatterDims.WF S1000000x1 S32000000x1 S32000000x1 [1] [0] [0] 1
  scatter_S1024x1_S1000000x1_S1000000x1_1_0_0_1_wf : ScatterDims.WF S1024x1 S1000000x1 S1000000x1 [1] [0] [0] 1
  scatter_S1024_S1000000x1_S1000000_n_0_0_1_wf : ScatterDims.WF S1024 S1000000x1 S1000000 [] [0] [0] 1
  dot_S1024x1_S1x1_S1024x1_1_0_0_1_n_n_wf : DotDims.WF S1024x1 S1x1 S1024x1 [1] [0] [0] [1] [] []

variable [Facts₀]

def gather_S1000000x1_S32000000x1_S32000000x1_1_0_n_n_0_1_11 : GatherDims S1000000x1 S32000000x1 S32000000x1 where
  offsetDims := [1]
  collapsedSliceDims := [0]
  operandBatchingDims := []
  startIndicesBatchingDims := []
  startIndexMap := [0]
  indexVectorDim := 1
  sliceSizes := ![1, 1]
  wf := gather_S1000000x1_S32000000x1_S32000000x1_1_0_n_n_0_1_11_wf
def scatter_S1000000x1_S32000000x1_S32000000x1_1_0_0_1 : ScatterDims S1000000x1 S32000000x1 S32000000x1 where
  updateWindowDims := [1]
  insertedWindowDims := [0]
  scatterDimsToOperandDims := [0]
  indexVectorDim := 1
  wf := scatter_S1000000x1_S32000000x1_S32000000x1_1_0_0_1_wf
def scatter_S1024x1_S1000000x1_S1000000x1_1_0_0_1 : ScatterDims S1024x1 S1000000x1 S1000000x1 where
  updateWindowDims := [1]
  insertedWindowDims := [0]
  scatterDimsToOperandDims := [0]
  indexVectorDim := 1
  wf := scatter_S1024x1_S1000000x1_S1000000x1_1_0_0_1_wf
def scatter_S1024_S1000000x1_S1000000_n_0_0_1 : ScatterDims S1024 S1000000x1 S1000000 where
  updateWindowDims := []
  insertedWindowDims := [0]
  scatterDimsToOperandDims := [0]
  indexVectorDim := 1
  wf := scatter_S1024_S1000000x1_S1000000_n_0_0_1_wf
def dot_S1024x1_S1x1_S1024x1_1_0_0_1_n_n : DotDims S1024x1 S1x1 S1024x1 where
  lhsContracting := [1]
  rhsContracting := [0]
  lhsNonContracting := [0]
  rhsNonContracting := [1]
  lhsBatch := []
  rhsBatch := []
  wf := dot_S1024x1_S1x1_S1024x1_1_0_0_1_n_n_wf

class Facts : Prop extends Facts₀ where

variable [Facts]
-- ==== Proof.PoolPieces.lean ====
/-
  What one grid step leaves behind, as values.

  The accumulator `acc : [1024, 2]` (column 0 the running sums, column 1 the running counts) is cleared at the first
  step; every step then replaces it by `acc + Mᵀ·[h | 1]`, where `M` is the step's `1024 × 1024` node-to-graph indicator
  matrix and `h` its rectified node values; the last step also writes the output block, computed from the updated
  accumulator and the weight and bias blocks. Each of these is the single covering store's payload, its loads reading
  the whole buffers (the accumulator read back after an earlier store of the same step reads that store's payload).
-/
import proofs.«412733_j24945170055652_1_alg».proof.Proof.Gen.KernelIdeal.Frame
import Idealize.ShloMosaic.Lib.Pipeline.Value
import Idealize.ShloMosaic.Lib.Tactic

noncomputable section

namespace Cert.KernelIdeal.PoolPieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- FIRST STEP: the accumulator is cleared, read back, and left at `0 + Mᵀ·[h | 1]`. -/
theorem sout_A (c : Dev nD) (i : grid0.Coords) (arg1 : Memref sig .tc .vmem S1024x1 .f32) (harg1 : arg1.IsWhole) (arg2 : Memref sig .tc .vmem S1024x1 .i32) (harg2 : arg2.IsWhole) (arg3 : Memref sig .tc .vmem S1x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x2 .f32) (harg6 : arg6.IsWhole) (hc0 : cond0_0 i) (hc1 : ¬cond0_1 i)
    (x0 : Vec F S1024x1 .f32) (x1 : Vec F S1024x1 .i32) (x2 : Vec F S1x1 .f32) (x3 : Vec F S1x1 .f32) :
    sout0_A_0 c i arg1 harg1 arg2 harg2 arg3 harg3 arg4 harg4 arg5 harg5 arg6 harg6 hc0 hc1 x0 x1 x2 x3 = k0_pay2 x0 x1 (k0_pay1 (F := F)) := by
  unfold sout0_A_0
  rw [View.read_writes_eq_canon _ _ _ (scover0_A_0 c i arg1 harg1 arg2 harg2 arg3 harg3 arg4 harg4 arg5 harg5 arg6 harg6 hc0 hc1 x0 x1 x2 x3)]
  unfold kernelRun0_A
  dsimp only
  sl_unfold_words
  rw [View.canon_cons_unit_zero (S := S1024x2) hz, View.readCov_unit_zero (S := S1024x2) _ hz]
  simp only [View.readAt_eq_ld, harg1.read_unread, harg2.read_unread, View.ld_unit_zero (S := S1024x1) hz]

/-- A MIDDLE STEP: the accumulator found at `acc` is left at `acc + Mᵀ·[h | 1]`. -/
theorem sout_B (c : Dev nD) (i : grid0.Coords) (arg1 : Memref sig .tc .vmem S1024x1 .f32) (harg1 : arg1.IsWhole) (arg2 : Memref sig .tc .vmem S1024x1 .i32) (harg2 : arg2.IsWhole) (arg3 : Memref sig .tc .vmem S1x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x2 .f32) (harg6 : arg6.IsWhole) (hc0 : ¬cond0_0 i) (hc1 : ¬cond0_1 i)
    (x0 : Vec F S1024x1 .f32) (x1 : Vec F S1024x1 .i32) (x2 : Vec F S1x1 .f32) (x3 : Vec F S1x1 .f32) (xs0 : Vec F S1024x2 .f32) :
    sout0_B_0 c i arg1 harg1 arg2 harg2 arg3 harg3 arg4 harg4 arg5 harg5 arg6 harg6 hc0 hc1 x0 x1 x2 x3 xs0 = k0_pay2 x0 x1 xs0 := by
  unfold sout0_B_0
  rw [View.read_writes_eq_canon _ _ _ (scover0_B_0 c i arg1 harg1 arg2 harg2 arg3 harg3 arg4 harg4 arg5 harg5 arg6 harg6 hc0 hc1 x0 x1 x2 x3 xs0)]
  unfold kernelRun0_B
  dsimp only
  rw [View.canon_unit_zero hz]
  simp only [View.readAt_eq_ld, harg1.read_unread, harg2.read_unread, harg6.read_unread,
    View.ld_unit_zero (S := S1024x1) hz, View.ld_unit_zero (S := S1024x2) hz]

/-- THE LAST STEP leaves the accumulator likewise, -/
theorem sout_C (c : Dev nD) (i : grid0.Coords) (arg1 : Memref sig .tc .vmem S1024x1 .f32) (harg1 : arg1.IsWhole) (arg2 : Memref sig .tc .vmem S1024x1 .i32) (harg2 : arg2.IsWhole) (arg3 : Memref sig .tc .vmem S1x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x2 .f32) (harg6 : arg6.IsWhole) (hc0 : ¬cond0_0 i) (hc1 : cond0_1 i)
    (x0 : Vec F S1024x1 .f32) (x1 : Vec F S1024x1 .i32) (x2 : Vec F S1x1 .f32) (x3 : Vec F S1x1 .f32) (xs0 : Vec F S1024x2 .f32) :
    sout0_C_0 c i arg1 harg1 arg2 harg2 arg3 harg3 arg4 harg4 arg5 harg5 arg6 harg6 hc0 hc1 x0 x1 x2 x3 xs0 = k0_pay2 x0 x1 xs0 := by
  unfold sout0_C_0
  rw [View.read_writes_eq_canon _ _ _ (scover0_C_0 c i arg1 harg1 arg2 harg2 arg3 harg3 arg4 harg4 arg5 harg5 arg6 harg6 hc0 hc1 x0 x1 x2 x3 xs0)]
  unfold kernelRun0_C
  dsimp only
  sl_unfold_words
  rw [View.canon_unit_zero hz]
  simp only [View.readAt_eq_ld, harg1.read_unread, harg2.read_unread, harg6.read_unread,
    View.ld_unit_zero (S := S1024x1) hz, View.ld_unit_zero (S := S1024x2) hz]

/-- and writes the output block from the UPDATED accumulator, the weight block and the bias block. -/
theorem out_C (c : Dev nD) (i : grid0.Coords) (arg1 : Memref sig .tc .vmem S1024x1 .f32) (harg1 : arg1.IsWhole) (arg2 : Memref sig .tc .vmem S1024x1 .i32) (harg2 : arg2.IsWhole) (arg3 : Memref sig .tc .vmem S1x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x2 .f32) (harg6 : arg6.IsWhole) (hc0 : ¬cond0_0 i) (hc1 : cond0_1 i)
    (x0 : Vec F S1024x1 .f32) (x1 : Vec F S1024x1 .i32) (x2 : Vec F S1x1 .f32) (x3 : Vec F S1x1 .f32) (xs0 : Vec F S1024x2 .f32) :
    out0_C_4 c i arg1 harg1 arg2 harg2 arg3 harg3 arg4 harg4 arg5 harg5 arg6 harg6 hc0 hc1 x0 x1 x2 x3 xs0 = k0_pay3 (k0_pay2 x0 x1 xs0) x2 x3 := by
  unfold out0_C_4
  rw [View.read_writes_eq_canon _ _ _ (cover0_C_4 c i arg1 harg1 arg2 harg2 arg3 harg3 arg4 harg4 arg5 harg5 arg6 harg6 hc0 hc1 x0 x1 x2 x3 xs0)]
  unfold kernelRun0_C
  dsimp only
  sl_unfold_words
  rw [View.canon_unit_zero hz]
  simp only [View.readAt_eq_ld, harg1.read_unread, harg2.read_unread, harg3.read_unread, harg4.read_unread,
    harg6.read_unread, View.ld_unit_zero (S := S1024x1) hz, View.ld_unit_zero (S := S1024x2) hz,
    View.ld_unit_zero (S := S1x1) hz, View.readCov_unit_zero (S := S1024x2) _ hz]

end Cert.KernelIdeal.PoolPieces

end
-- ==== Proof.PoolSpec.lean ====
/-
  Mean pooling of rows into segments, followed by one affine map — the value both programs compute.

  Rows `n < N` carry a value `a n` and a segment id `ids n` (a 32-bit word read signed). Segment `g` collects the rows
  whose id is `g`: `segSum ids v g = ∑ n, (v n if ids n = g, else 0)`. The pooled output of segment `g` is

      (∑_{ids n = g} max (a n) 0) / max (#{n | ids n = g}) 1 · w + b

  on the extended reals. Three rearrangements of `segSum` are proved here, each using only that addition of extended
  reals is commutative and associative and that `0 · x = 0`, `1 · x = x` (so none needs the values to be finite):
  rows appended with the id `-1` change nothing (no segment has that id); the sum over `S · R` rows is the sum over `S`
  blocks of the sums over the `R` rows of each block; and selecting a row by comparing its id with the WORD `g`
  (for `g` below `2^31`) and multiplying by the selected one or zero is the same as selecting by the signed reading.
-/
import Idealize.ShloMosaic.PureOps.Ideal
import Mathlib.Algebra.BigOperators.Fin
import Mathlib.Logic.Equiv.Fin.Basic

noncomputable section

open scoped BigOperators

namespace Cert.Pool

open Idealize.ShloMosaic

/-- Row contribution to segment `g`: the value when the row's id, read signed, is `g`; zero otherwise. -/
def pick (id : BitVec 32) (g : Nat) (v : EReal) : EReal := if id.toInt = (g : Int) then v else 0

/-- The segment sum: every row's contribution to segment `g`. -/
def segSum {N : Nat} (ids : Fin N → BitVec 32) (v : Fin N → EReal) (g : Nat) : EReal := ∑ n, pick (ids n) g (v n)

/-- The pooled output of segment `g`: the mean of the rectified values of its rows (an empty segment divides by one),
    scaled by `w` and shifted by `b`. -/
def pooled {N : Nat} (ids : Fin N → BitVec 32) (a : Fin N → EReal) (w b : EReal) (g : Nat) : EReal :=
  Ideal.div (segSum ids (fun n => max (a n) 0) g) (max (segSum ids (fun _ => 1) g) 1) * w + b

/-- A row whose id is `-1` contributes to no segment. -/
theorem pick_neg_one (g : Nat) (v : EReal) : pick 4294967295#32 g v = 0 := by
  unfold pick
  rw [if_neg]
  have : (4294967295#32 : BitVec 32).toInt = -1 := by decide
  rw [this]; omega

/-- Rows appended with the id `-1` do not change any segment sum. -/
theorem segSum_append {N P : Nat} (ids : Fin (N + P) → BitVec 32) (v : Fin (N + P) → EReal) (g : Nat)
    (hp : ∀ p : Fin P, ids (Fin.natAdd N p) = 4294967295#32) :
    segSum ids v g = segSum (fun n => ids (Fin.castAdd P n)) (fun n => v (Fin.castAdd P n)) g := by
  unfold segSum
  rw [Fin.sum_univ_add]
  have hz : ∑ p : Fin P, pick (ids (Fin.natAdd N p)) g (v (Fin.natAdd N p)) = 0 :=
    Finset.sum_eq_zero fun p _ => by rw [hp p, pick_neg_one]
  rw [hz, add_zero]

/-- Row `r` of block `s`, among `S · R` rows laid out block after block. -/
def blockRow {S R : Nat} (s : Fin S) (r : Fin R) : Fin (S * R) := finProdFinEquiv (s, r)

theorem blockRow_val {S R : Nat} (s : Fin S) (r : Fin R) : (blockRow s r).val = r.val + R * s.val := rfl

/-- The segment sum over `S · R` rows is the sum over the blocks of each block's sum. -/
theorem segSum_blocks {S R : Nat} (ids : Fin (S * R) → BitVec 32) (v : Fin (S * R) → EReal) (g : Nat) :
    segSum ids v g = ∑ s : Fin S, ∑ r : Fin R, pick (ids (blockRow s r)) g (v (blockRow s r)) := by
  unfold segSum
  rw [← Equiv.sum_comp (finProdFinEquiv (m := S) (n := R)) fun n => pick (ids n) g (v n), Fintype.sum_prod_type]
  rfl

/-- The same with the number of rows named: block `s`'s row `r` is row `r + R · s`. -/
theorem segSum_blocks' {N S R : Nat} (hN : S * R = N) (ids : Fin N → BitVec 32) (v : Fin N → EReal) (g : Nat) :
    segSum ids v g = ∑ s : Fin S, ∑ r : Fin R,
      pick (ids ⟨r.val + R * s.val, by have := (blockRow s r).isLt; rw [blockRow_val] at this; omega⟩) g
        (v ⟨r.val + R * s.val, by have := (blockRow s r).isLt; rw [blockRow_val] at this; omega⟩) := by
  subst hN
  exact segSum_blocks ids v g

/-- Rows from `N` on carrying the id `-1` change no segment sum (the number of rows named). -/
theorem segSum_append' {N P M : Nat} (hM : N + P = M) (ids : Fin M → BitVec 32) (v : Fin M → EReal) (g : Nat)
    (hp : ∀ n : Fin M, N ≤ n.val → ids n = 4294967295#32) :
    segSum ids v g = segSum (fun n : Fin N => ids ⟨n.val, by have := n.isLt; omega⟩)
      (fun n : Fin N => v ⟨n.val, by have := n.isLt; omega⟩) g := by
  subst hM
  exact segSum_append ids v g (fun p => hp _ (by simp))

/-- For `g` below `2^31` a word equals the word `g` exactly when its signed reading is `g`. -/
theorem ofNat_eq_iff_toInt (g : Nat) (hg : g < 2147483648) (id : BitVec 32) :
    BitVec.ofNat 32 g = id ↔ id.toInt = (g : Int) := by
  have key : (BitVec.ofNat 32 g).toInt = (g : Int) := by
    rw [BitVec.toInt_eq_toNat_cond, BitVec.toNat_ofNat]
    have hm : g % 2 ^ 32 = g := Nat.mod_eq_of_lt (by omega)
    rw [hm, if_pos (by omega)]
  constructor
  · intro h; subst h; exact key
  · intro h; exact BitVec.eq_of_toInt_eq (key.trans h.symm)

/-- Selecting one or zero by the word comparison and multiplying is the row's contribution. -/
theorem select_mul (g : Nat) (hg : g < 2147483648) (id : BitVec 32) (v : EReal) :
    (if BitVec.ofNat 32 g = id then (1 : EReal) else 0) * v = pick id g v := by
  unfold pick
  by_cases h : id.toInt = (g : Int)
  · rw [if_pos ((ofNat_eq_iff_toInt g hg id).mpr h), if_pos h, one_mul]
  · rw [if_neg (fun e => h ((ofNat_eq_iff_toInt g hg id).mp e)), if_neg h, zero_mul]

end Cert.Pool

end
-- ==== Proof.PoolPayload.lean ====
/-
  The step's arithmetic read at one entry, on the extended reals.

  The node-to-graph indicator of a step has entry `(r, g)` equal to one when node `r`'s graph id is the word `g` and
  zero otherwise; the stacked matrix `[h | 1]` has the rectified node value in column 0 and one in column 1. The
  contraction over the step's 1024 nodes therefore adds to accumulator entry `(g, 0)` the rectified values of the
  step's nodes in graph `g`, and to entry `(g, 1)` their number. The output entry of graph `g` is the accumulated sum
  divided by the accumulated count (at least one), times the weight, plus the bias.
-/
import proofs.«412733_j24945170055652_1_alg».proof.Proof.Gen.KernelIdeal.Skeleton
import proofs.«412733_j24945170055652_1_alg».proof.Proof.PoolSpec
import Idealize.ShloMosaic.Lib.Pipeline.Value
import Idealize.ShloMosaic.Lib.ValueIdx
import Idealize.ShloMosaic.PureOps.Ideal.Laws

noncomputable section

open scoped BigOperators

namespace Cert.KernelIdeal.PoolPayload

open Cert.KernelIdeal Cert.KernelIdeal.Gen Idealize.ShloMosaic Idealize.ShloMosaic.ValueIdx Cert.Pool

/-- The words `0x3F800000` (f32) and `0x3F80` (bf16) are the real number one. -/
theorem one_f32 : Ideal.ofBits .f32 0x3F800000#32 = 1 := by
  simp [Ideal.ofBits, Ideal.ieee, -EReal.coe_mul]; norm_num
theorem one_bf16 : Ideal.ofBits .bf16 0x3F80#16 = 1 := by
  simp [Ideal.ofBits, Ideal.ieee, -EReal.coe_mul]; norm_num

/-! ## The contraction: `(Lᵀ · R) (g, j) = ∑ r, L (r, g) · R (r, j)` -/

theorem lhs_0 (i : S1024x2.Idx) (q : dot_S1024x1024_S1024x2_S1024x2_0_0_1_1_n_n.contr.Idx) :
    (dot_S1024x1024_S1024x2_S1024x2_0_0_1_1_n_n.lhsIdx i q 0).val = (q ⟨0, by decide⟩).val :=
  dot_S1024x1024_S1024x2_S1024x2_0_0_1_1_n_n.lhsIdx_val_of_single rfl i q
theorem lhs_1 (i : S1024x2.Idx) (q : dot_S1024x1024_S1024x2_S1024x2_0_0_1_1_n_n.contr.Idx) :
    (dot_S1024x1024_S1024x2_S1024x2_0_0_1_1_n_n.lhsIdx i q 1).val = (i 0).val := by
  unfold DotDims.lhsIdx
  rw [dif_neg (show ¬(1 : Fin S1024x1024.rank) ∈ dot_S1024x1024_S1024x2_S1024x2_0_0_1_1_n_n.lhsBatch by decide), dif_pos (show (1 : Fin S1024x1024.rank) ∈ dot_S1024x1024_S1024x2_S1024x2_0_0_1_1_n_n.lhsNonContracting by decide)]
  rfl
theorem rhs_0 (i : S1024x2.Idx) (q : dot_S1024x1024_S1024x2_S1024x2_0_0_1_1_n_n.contr.Idx) :
    (dot_S1024x1024_S1024x2_S1024x2_0_0_1_1_n_n.rhsIdx i q 0).val = (q ⟨0, by decide⟩).val :=
  dot_S1024x1024_S1024x2_S1024x2_0_0_1_1_n_n.rhsIdx_val_of_single rfl i q
theorem rhs_1 (i : S1024x2.Idx) (q : dot_S1024x1024_S1024x2_S1024x2_0_0_1_1_n_n.contr.Idx) :
    (dot_S1024x1024_S1024x2_S1024x2_0_0_1_1_n_n.rhsIdx i q 1).val = (i 1).val := by
  unfold DotDims.rhsIdx
  rw [dif_neg (show ¬(1 : Fin S1024x2.rank) ∈ dot_S1024x1024_S1024x2_S1024x2_0_0_1_1_n_n.rhsBatch by decide), dif_pos (show (1 : Fin S1024x2.rank) ∈ dot_S1024x1024_S1024x2_S1024x2_0_0_1_1_n_n.rhsNonContracting by decide)]
  rfl

/-- The product into a zero accumulator, at entry `(g, j)`: the sum over the 1024 rows of the two columns' products. -/
theorem contract_apply (L : FVec Ideal S1024x1024 .bf16) (R : FVec Ideal S1024x2 .bf16) (g : Fin 1024) (j : Fin 2) :
    matmul dot_S1024x1024_S1024x2_S1024x2_0_0_1_1_n_n none L R (constant (F := Ideal) S1024x2 .f32 0x00000000#32) (ix2 g j)
      = ∑ r : Fin 1024, L (ix2 r g) * R (ix2 r j) := by
  simp only [matmul]
  rw [Ideal.matmul_constant_zero_apply, ← Equiv.sum_comp (contrEquiv1 dot_S1024x1024_S1024x2_S1024x2_0_0_1_1_n_n 1024 rfl rfl).symm]
  refine Finset.sum_congr rfl fun k _ => ?_
  have hk := contrEquiv1_symm_val dot_S1024x1024_S1024x2_S1024x2_0_0_1_1_n_n 1024 rfl rfl k
  have el : dot_S1024x1024_S1024x2_S1024x2_0_0_1_1_n_n.lhsIdx (ix2 g j) ((contrEquiv1 dot_S1024x1024_S1024x2_S1024x2_0_0_1_1_n_n 1024 rfl rfl).symm k) = ix2 k g := funext fun a => Fin.ext (by
    match a with
    | ⟨0, _⟩ => exact (lhs_0 _ _).trans hk
    | ⟨1, _⟩ => exact lhs_1 _ _)
  have er : dot_S1024x1024_S1024x2_S1024x2_0_0_1_1_n_n.rhsIdx (ix2 g j) ((contrEquiv1 dot_S1024x1024_S1024x2_S1024x2_0_0_1_1_n_n 1024 rfl rfl).symm k) = ix2 k j := funext fun a => Fin.ext (by
    match a with
    | ⟨0, _⟩ => exact (rhs_0 _ _).trans hk
    | ⟨1, _⟩ => exact rhs_1 _ _)
  rw [el, er]

/-! ## The two operands at an entry -/

/-- A select on the equality bit of two words is the `if` on their equality. -/
theorem select_cmpi_eq {α : Type} (x y : BitVec 32) (a b : α) :
    Scalar.select (IntOp.cmpi .eq x y) a b = if x = y then a else b := by
  by_cases h : x = y
  · simp [Scalar.select, IntOp.cmpi, h]
  · have hb : (x == y) = false := beq_eq_false_iff_ne.mpr h
    simp [Scalar.select, IntOp.cmpi, hb, h]

/-- The indicator's entry `(r, g)`: one when node `r`'s id is the word `g`, else zero. -/
theorem indicator_apply (ids : IVec S1024x1 32) (r g : Fin 1024) :
    (truncf .bf16 (select (cmpi .eq (iota .tc S1024x1024 32 [1] iota_S1024x1024_d1_w32) (broadcastTo S1024x1024 ids broadcasts_S1024x1_S1024x1024))
        (broadcast S1024x1024 (Scalar.ofBits (F := Ideal) .f32 0x3F800000#32)) (broadcast S1024x1024 (Scalar.ofBits (F := Ideal) .f32 0x00000000#32)))
      bitsLt_bf16_f32 : FVec Ideal S1024x1024 .bf16) (ix2 r g)
      = if BitVec.ofNat 32 g.val = ids (ix2 r 0) then 1 else 0 := by
  rw [truncf_apply, select_apply, broadcast_apply, broadcast_apply]
  have hc : cmpi .eq (iota .tc S1024x1024 32 [1] iota_S1024x1024_d1_w32) (broadcastTo S1024x1024 ids broadcasts_S1024x1_S1024x1024) (ix2 r g)
      = IntOp.cmpi .eq (BitVec.ofNat 32 g.val) (ids (ix2 r 0)) := by
    show IntOp.cmpi .eq (iota .tc S1024x1024 32 [1] iota_S1024x1024_d1_w32 (ix2 r g)) (broadcastTo S1024x1024 ids broadcasts_S1024x1_S1024x1024 (ix2 r g)) = _
    rw [iota_single_apply, broadcastTo_apply ids broadcasts_S1024x1_S1024x1024 (ix2 r g) (ix2 r 0) (fun a => by
      match a with
      | ⟨0, _⟩ => show r.val = if (1024 : Nat) = 1 then 0 else r.val; rw [if_neg (by decide)]
      | ⟨1, _⟩ => show 0 = if (1 : Nat) = 1 then 0 else g.val; rw [if_pos rfl])]
  rw [hc]
  show Scalar.select _ (Ideal.ofBits .f32 0x3F800000#32) (Ideal.ofBits .f32 0x00000000#32) = _
  rw [one_f32, Ideal.ofBits_zero_f32]
  exact select_cmpi_eq _ _ _ _

/-- The stacked matrix's columns: the rectified node value, and one. -/
theorem stacked_apply0 (a : FVec Ideal S1024x1 .f32) (r : Fin 1024) :
    (concatenate S1024x2 1 [⟨S1024x1, (truncf .bf16 (maximumf a (broadcast S1024x1 (Scalar.ofBits (F := Ideal) .f32 0x00000000#32))) bitsLt_bf16_f32 : FVec Ideal S1024x1 .bf16)⟩,
        ⟨S1024x1, (broadcast S1024x1 (Scalar.ofBits (F := Ideal) .bf16 0x3F80#16) : FVec Ideal S1024x1 .bf16)⟩] concatenates_S1024x1_S1024x1_S1024x2_d1) (ix2 r 0)
      = max (a (ix2 r 0)) 0 := by
  rw [concatenate_pair_apply_left (t := S1024x2) (s₁ := S1024x1) (s₂ := S1024x1) (1 : Fin 2) _ _ concatenates_S1024x1_S1024x1_S1024x2_d1
    (ix2 r (0 : Fin 2)) rfl (ix2 r (0 : Fin 1)) (fun b => by
    match b with
    | ⟨0, _⟩ => rfl
    | ⟨1, _⟩ => rfl)]
  rw [truncf_apply, maximumf_apply, broadcast_apply]
  show max _ (Ideal.ofBits .f32 0x00000000#32) = _
  rw [Ideal.ofBits_zero_f32]

theorem stacked_apply1 (a : FVec Ideal S1024x1 .f32) (r : Fin 1024) :
    (concatenate S1024x2 1 [⟨S1024x1, (truncf .bf16 (maximumf a (broadcast S1024x1 (Scalar.ofBits (F := Ideal) .f32 0x00000000#32))) bitsLt_bf16_f32 : FVec Ideal S1024x1 .bf16)⟩,
        ⟨S1024x1, (broadcast S1024x1 (Scalar.ofBits (F := Ideal) .bf16 0x3F80#16) : FVec Ideal S1024x1 .bf16)⟩] concatenates_S1024x1_S1024x1_S1024x2_d1) (ix2 r 1)
      = 1 := by
  rw [concatenate_pair_apply_right (t := S1024x2) (s₁ := S1024x1) (s₂ := S1024x1) (1 : Fin 2) _ _ concatenates_S1024x1_S1024x1_S1024x2_d1
    (ix2 r (1 : Fin 2)) rfl rfl (ix2 r (0 : Fin 1)) (fun b hb => by
    match b with
    | ⟨0, _⟩ => rfl
    | ⟨1, _⟩ => exact absurd rfl hb) rfl]
  rw [broadcast_apply]
  exact one_bf16

/-! ## The payloads at an entry -/

/-- The cleared accumulator is zero everywhere. -/
theorem pay1_apply (i : S1024x2.Idx) : k0_pay1 (F := Ideal) i = 0 := by
  unfold k0_pay1
  rw [shapeCast_self, broadcast_apply]
  exact Ideal.ofBits_zero_f32

/-- Column 0 of the updated accumulator: the old entry plus the step's rectified values of graph `g`. -/
theorem pay2_apply0 (a : Vec Ideal S1024x1 .f32) (ids : Vec Ideal S1024x1 .i32) (acc : Vec Ideal S1024x2 .f32) (g : Fin 1024) :
    k0_pay2 (F := Ideal) a ids acc (ix2 g 0)
      = acc (ix2 g 0) + ∑ r : Fin 1024, pick (ids (ix2 r 0)) g.val (max (a (ix2 r 0)) 0) := by
  unfold k0_pay2
  rw [shapeCast_self, addf_apply, shapeCast_self, shapeCast_self, contract_apply]
  refine congrArg (acc (ix2 g 0) + ·) (Finset.sum_congr rfl fun r _ => ?_)
  rw [indicator_apply, stacked_apply0]
  exact select_mul g.val (by have := g.isLt; omega) _ _

/-- Column 1: the old entry plus the number of the step's nodes in graph `g`. -/
theorem pay2_apply1 (a : Vec Ideal S1024x1 .f32) (ids : Vec Ideal S1024x1 .i32) (acc : Vec Ideal S1024x2 .f32) (g : Fin 1024) :
    k0_pay2 (F := Ideal) a ids acc (ix2 g 1)
      = acc (ix2 g 1) + ∑ r : Fin 1024, pick (ids (ix2 r 0)) g.val 1 := by
  unfold k0_pay2
  rw [shapeCast_self, addf_apply, shapeCast_self, shapeCast_self, contract_apply]
  refine congrArg (acc (ix2 g 1) + ·) (Finset.sum_congr rfl fun r _ => ?_)
  rw [indicator_apply, stacked_apply1]
  exact select_mul g.val (by have := g.isLt; omega) _ _

/-- The output entry of graph `g`: sum over count (at least one), times the weight, plus the bias. -/
theorem pay3_apply (acc : Vec Ideal S1024x2 .f32) (wv bv : Vec Ideal S1x1 .f32) (g : Fin 1024) :
    k0_pay3 (F := Ideal) acc wv bv (ix2 g 0)
      = Ideal.div (acc (ix2 g 0)) (max (acc (ix2 g 1)) 1) * wv (ix2 0 0) + bv (ix2 0 0) := by
  unfold k0_pay3
  rw [addf_apply, mulf_apply, divf_apply, maximumf_apply, broadcast_apply, broadcast_apply, broadcast_apply,
    extractStridedSlice_apply ![0, 0] acc slices_S1024x2_o0_0_S1024x1 (ix2 g 0) (ix2 g 0) (fun b => by
      match b with
      | ⟨0, _⟩ => show g.val = 0 + g.val; omega
      | ⟨1, _⟩ => rfl),
    extractStridedSlice_apply ![0, 1] acc slices_S1024x2_o0_1_S1024x1 (ix2 g 0) (ix2 g 1) (fun b => by
      match b with
      | ⟨0, _⟩ => show g.val = 0 + g.val; omega
      | ⟨1, _⟩ => rfl)]
  show Ideal.div _ (max _ (Ideal.ofBits .f32 0x3F800000#32)) * wv (fun a => ⟨(![0, 0] : Fin 2 → Nat) a, _⟩) + bv (fun a => ⟨(![0, 0] : Fin 2 → Nat) a, _⟩) = _
  rw [one_f32]
  have e : (fun a => (⟨(![0, 0] : Fin 2 → Nat) a, inpos_S1x1_p0_0 a⟩ : Fin (S1x1.size a))) = ix2 (0 : Fin 1) (0 : Fin 1) :=
    funext fun a => Fin.ext (by match a with | ⟨0, _⟩ => rfl | ⟨1, _⟩ => rfl)
  rw [e]

end Cert.KernelIdeal.PoolPayload

end
-- ==== Proof.PoolHost.lean ====
/-
  What the region finds in its operand arrays.

  Before the pooling step the program computes the node values (the inputs gathered along the edges and summed at
  each edge's target node), pads them with 448 zero rows to a whole number of 1024-row blocks, pads the graph ids
  with 448 rows of the id `-1`, and views the bias as a `1 × 1` matrix. The node values are the same operations,
  on the same arguments, as the other program's: the two terms are one.
-/
import proofs.«412733_j24945170055652_1_alg».proof.Proof.Gen.KernelIdeal.Frame
import proofs.«412733_j24945170055652_1_alg».proof.Proof.Gen.ReferenceIdeal.Read
import Idealize.ShloMosaic.Lib.StableHlo.Run

noncomputable section

namespace Cert.KernelIdeal.PoolHost

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The bias block's array: the bias vector viewed `1 × 1`. -/
theorem V_v17 (c : Dev nD) : (V m c main_v17 : S1x1.Idx → F .f32)
    = shapeCast S1x1 (m ((c : Thread nD τ).loc main_arg2)) shapeCasts_S1_S1x1 := by
  dsimp only [V]
  simp only [hostOps0, hostOps0_1, hostOps0_2, hostOps0_3, hostOps0_4, List.flatten_cons, List.flatten_nil, List.append_nil,
    List.cons_append, List.nil_append]
  after_results
  rfl

/-- The padded graph ids: the ids as a column, then 448 rows of `-1`. -/
theorem V_v16 (c : Dev nD) : (V m c main_v16 : S1000448x1.Idx → BitVec 32)
    = pad S1000448x1 ![0, 0] ![448, 0] ![0, 0] (shapeCast S1000000x1 (m ((c : Thread nD τ).loc main_arg4)) shapeCasts_S1000000_S1000000x1)
        (constantI S_ 32 4294967295#32) pads_S1000000x1_S1000448x1_04480_000 h_S_ := by
  dsimp only [V]
  simp only [hostOps0, hostOps0_1, hostOps0_2, hostOps0_3, hostOps0_4, List.flatten_cons, List.flatten_nil, List.append_nil,
    List.cons_append, List.nil_append]
  after_results
  rfl

/-- The padded node values: the other program's node values of the same arguments, then 448 rows of the integer
    zero converted to a float. -/
theorem V_v14 (c : Dev nD) : (V m c main_v14 : S1000448x1.Idx → F .f32)
    = pad S1000448x1 ![0, 0] ![448, 0] ![0, 0]
        (Cert.ReferenceIdeal.Read.val_main_v13 (F := F) (m ((c : Thread nD τ).loc main_arg0)) (m ((c : Thread nD τ).loc main_arg3)))
        (sitofp .f32 (constantI S_ 32 0#32)) pads_S1000000x1_S1000448x1_04480_000 h_S_ := by
  dsimp only [V]
  simp only [hostOps0, hostOps0_1, hostOps0_2, hostOps0_3, hostOps0_4, List.flatten_cons, List.flatten_nil, List.append_nil,
    List.cons_append, List.nil_append]
  after_results
  rfl

end Cert.KernelIdeal.PoolHost

end
-- ==== Proof.PoolAcc.lean ====
/-
  The accumulator over the grid, and the result array.

  The kernel visits 977 blocks of 1024 node rows. Its accumulator is cleared at the first block and every block adds
  its own contribution `addend` to each entry: after block `n` the accumulator entry `i` is `0 + ∑_{s ≤ n} (block s's
  addend at i)`, by induction on the block and never by listing the blocks. Only the last block writes the output,
  from the accumulator it has just updated, and that one block is the whole result array.
-/
import proofs.«412733_j24945170055652_1_alg».proof.Proof.Gen.KernelIdeal.Value
import proofs.«412733_j24945170055652_1_alg».proof.Proof.PoolPieces
import proofs.«412733_j24945170055652_1_alg».proof.Proof.PoolPayload
import proofs.«412733_j24945170055652_1_alg».proof.Proof.PoolSpec
import proofs.«412733_j24945170055652_1_alg».proof.Proof.PoolHost

noncomputable section

open scoped BigOperators

namespace Cert.KernelIdeal.PoolAcc

open Cert.KernelIdeal Cert.KernelIdeal.Gen Cert.KernelIdeal.Value Idealize.ShloMosaic Idealize.ShloMosaic.TcCoe Idealize.SL.Sem
open Idealize.ShloMosaic.ValueIdx Cert.Pool
open Idealize.ShloMosaic.Pipeline (Dat)

variable (m : (ℓ : Loc nD τ sig) → Buf (Elt Ideal) ℓ) (ρ : Dev nD → PrngReg)

/-- The four input blocks of grid step `t`, at their literal types: node values, graph ids, weight, bias. -/
abbrev ablk (c : Dev nD) (t : Fin cfg0.N) : Vec Ideal S1024x1 .f32 := iblk m c 0 t
abbrev gblk (c : Dev nD) (t : Fin cfg0.N) : Vec Ideal S1024x1 .i32 := iblk m c 1 t
abbrev wblk (c : Dev nD) (t : Fin cfg0.N) : Vec Ideal S1x1 .f32 := iblk m c 2 t
abbrev bblk (c : Dev nD) (t : Fin cfg0.N) : Vec Ideal S1x1 .f32 := iblk m c 3 t

/-- What a block adds to accumulator entry `i = (g, j)`: over its rows of graph `g`, the rectified value (`j = 0`) or one
    (`j = 1`). -/
def addend (a : Vec Ideal S1024x1 .f32) (ids : Vec Ideal S1024x1 .i32) (i : S1024x2.Idx) : EReal :=
  ∑ r : Fin 1024, pick (ids (ix2 r 0)) (i 0).val (if (i 1).val = 0 then max (a (ix2 r 0)) 0 else 1)

/-- One step of the accumulator at an entry. -/
theorem pay2_apply (a : Vec Ideal S1024x1 .f32) (ids : Vec Ideal S1024x1 .i32) (acc : Vec Ideal S1024x2 .f32) (i : S1024x2.Idx) :
    k0_pay2 (F := Ideal) a ids acc i = acc i + addend a ids i := by
  obtain ⟨g, j, rfl⟩ : ∃ (g : Fin 1024) (j : Fin 2), i = ix2 g j := ⟨i 0, i 1, eq_ix2 i⟩
  match j with
  | ⟨0, _⟩ =>
    refine (PoolPayload.pay2_apply0 a ids acc g).trans (congrArg (acc (ix2 g 0) + ·) (Finset.sum_congr rfl fun r _ => ?_))
    rw [if_pos rfl]
  | ⟨1, _⟩ =>
    refine (PoolPayload.pay2_apply1 a ids acc g).trans (congrArg (acc (ix2 g 1) + ·) (Finset.sum_congr rfl fun r _ => ?_))
    rw [if_neg (show ¬(1 : Nat) = 0 from Nat.one_ne_zero)]

/-- The first step ignores what the accumulator held: it clears it first. -/
theorem scAt_first (c : Dev nD) (h : 0 < cfg0.N) (acc : Vec Ideal S1024x2 .f32) :
    scAt0_0 m c 0 h acc = k0_pay2 (ablk m c ⟨0, h⟩) (gblk m c ⟨0, h⟩) (k0_pay1 (F := Ideal)) := by
  unfold scAt0_0
  rw [dif_pos (Nat.zero_mod 977), dif_neg (by decide)]
  exact PoolPieces.sout_A ..

/-- Every later step updates what the step before left. -/
theorem scAt_later (c : Dev nD) (n : Nat) (hb : n < cfg0.N) (hn : 0 < n) (acc : Vec Ideal S1024x2 .f32) :
    scAt0_0 m c n hb acc = k0_pay2 (ablk m c ⟨n, hb⟩) (gblk m c ⟨n, hb⟩) acc := by
  have hN : n < 977 := lt_of_lt_of_eq hb N_0
  unfold scAt0_0
  rw [dif_neg (by omega : ¬n % 977 = 0)]
  by_cases h1 : n % 977 = 976
  · rw [dif_pos h1]; exact PoolPieces.sout_C ..
  · rw [dif_neg h1]; exact PoolPieces.sout_B ..

/-- Block `s`'s addend (zero past the grid, which is never read). -/
def blockAdd (c : Dev nD) (s : Nat) (i : S1024x2.Idx) : EReal :=
  if h : s < cfg0.N then addend (ablk m c ⟨s, h⟩) (gblk m c ⟨s, h⟩) i else 0

/-- THE ACCUMULATOR after block `n`: zero plus the addends of blocks `0 … n`. -/
theorem acc_apply (c : Dev nD) (n : Nat) (hn : n < cfg0.N) (i : S1024x2.Idx) :
    (outsAt0 m c n hn).2 i = 0 + ∑ s ∈ Finset.range (n + 1), blockAdd m c (0 + s) i := by
  have hN : n < 977 := lt_of_lt_of_eq hn N_0
  rw [soutsAt0_0_sweep m c n hn]
  exact Pipeline.accAt_add_apply (ι := S1024x2.Idx) (β := EReal)
    (fun n h => scAt0_0 m c n h (VS0_0.read (Elt Ideal) VS0_0.junk)) (scAt0_0 m c) (fun _ => 0) (blockAdd m c) 0 976
    (fun h i => by
      show scAt0_0 m c 0 h _ i = _
      rw [scAt_first, pay2_apply, PoolPayload.pay1_apply]
      unfold blockAdd; rw [dif_pos h])
    (fun n h acc i hlt _ => by
      rw [scAt_later m c n h hlt, pay2_apply]
      unfold blockAdd; rw [dif_pos h])
    n (by omega) (by omega) i

/-- The last grid step. -/
theorem last_lt : 976 < cfg0.N := by rw [show cfg0.N = 977 from N_0]; decide
def tLast : Fin cfg0.N := ⟨976, last_lt⟩

/-! ## The weight and bias blocks are the `1 × 1` weight and the bias, at every step -/

theorem idx_facts2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_facts3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- The output window's block index is (0, 0) at every step. -/
theorem idx_facts4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- The weight and the bias, as the arguments hold them. -/
abbrev weight (c : Dev nD) : EReal := (m ((c : Thread nD τ).loc main_arg1) : S1x1.Idx → EReal) (ix2 0 0)
abbrev bias (c : Dev nD) : EReal := (m ((c : Thread nD τ).loc main_arg2) : S1.Idx → EReal) (ix1 0)

theorem wblk_apply (c : Dev nD) (t : Fin cfg0.N) : wblk m c t (ix2 0 0) = weight m c := by
  show iblk m c 2 t (ix2 0 0) = _
  unfold iblk
  rw [View.read_apply]
  unfold weight
  rw [← V_main_arg1 m c]
  show V m c main_arg1 _ = V m c main_arg1 _
  refine congrArg (V m c main_arg1) (funext fun a => Fin.ext ?_)
  match a with
  | ⟨0, _⟩ => show win0_2.index t 0 * 1 + 1 * 0 = 0; rw [(idx_facts2 t).1]
  | ⟨1, _⟩ => show win0_2.index t 1 * 1 + 1 * 0 = 0; rw [(idx_facts2 t).2]

theorem bblk_apply (c : Dev nD) (t : Fin cfg0.N) : bblk m c t (ix2 0 0) = bias m c := by
  show iblk m c 3 t (ix2 0 0) = _
  unfold iblk
  rw [View.read_apply]
  have e : (V m c main_v17 : S1x1.Idx → EReal) (ix2 0 0) = bias m c := by
    rw [PoolHost.V_v17]
    exact shapeCast_apply _ shapeCasts_S1_S1x1 (ix2 0 0) (ix1 0) (by rw [Shape.rowMajor_val_two, Shape.rowMajor_val_one]; rfl)
  rw [← e]
  show V m c main_v17 _ = V m c main_v17 _
  refine congrArg (V m c main_v17) (funext fun a => Fin.ext ?_)
  match a with
  | ⟨0, _⟩ => show win0_3.index t 0 * 1 + 1 * 0 = 0; rw [(idx_facts3 t).1]
  | ⟨1, _⟩ => show win0_3.index t 1 * 1 + 1 * 0 = 0; rw [(idx_facts3 t).2]

/-! ## The result array -/

/-- The accumulator once every block is in: zero plus all 977 addends. -/
def total (c : Dev nD) (i : S1024x2.Idx) : EReal := 0 + ∑ s ∈ Finset.range (976 + 1), blockAdd m c (0 + s) i

/-- THE RESULT: row `g` is the accumulated sum over the accumulated count (at least one), times the weight, plus the bias. -/
def result (c : Dev nD) : Buf (Elt Ideal) ((c : Thread nD τ).loc main_v18) := fun y =>
  Ideal.div (total m c (ix2 (y 0) 0)) (max (total m c (ix2 (y 0) 1)) 1) * weight m c + bias m c

/-- What the last step (any name `t` of it) leaves in the output block is computed from the accumulator it has just
    updated, and its weight and bias blocks. -/
theorem out_last (c : Dev nD) (t : Fin cfg0.N) (h0 : ¬t.val % 977 = 0) (h1 : t.val % 977 = 976) :
    (outsAt0 m c t.val t.isLt).1
      = k0_pay3 (F := Ideal) ((outsAt0 m c t.val t.isLt).2) (wblk m c t) (bblk m c t) := by
  rw [outsAt0_C m c t h0 h1]
  dsimp only
  rw [PoolPieces.out_C, PoolPieces.sout_C]

/-- It is the result. -/
theorem out_last_eq (c : Dev nD) (t : Fin cfg0.N) (h1 : t.val % 977 = 976) :
    (outsAt0 m c t.val t.isLt).1 = result m c := by
  have hN : cfg0.N = 977 := N_0
  have h976 : t.val = 976 := by have := t.isLt; omega
  have hr : Finset.range (t.val + 1) = Finset.range (976 + 1) := by rw [h976]
  funext y
  obtain ⟨g, z, rfl⟩ : ∃ (g : Fin 1024) (z : Fin 1), y = ix2 g z := ⟨y 0, y 1, eq_ix2 y⟩
  obtain rfl : z = 0 := Subsingleton.elim _ _
  rw [out_last m c t (by omega) h1, PoolPayload.pay3_apply, acc_apply, acc_apply, hr, wblk_apply, bblk_apply]
  rfl

/-- Through the block at index (0, 0) of the `[1024, 1]` array, whole-array contents read as themselves. -/
theorem cut_eq_read (c : Dev nD) (t : Fin cfg0.N) (R : Buf (Elt Ideal) ((c : Thread nD τ).loc main_v18)) :
    (cfg0.win 4).cut (grid0.coords t) R = ((cfg0.win 4).blk t).view.read (Elt Ideal) R := by
  have hz' : (fun a => win0_4.index t a * main_v18.ty.shape.size a) = fun _ => 0 := funext fun a => by
    match a with
    | ⟨0, _⟩ => show win0_4.index t 0 * 1024 = 0; rw [(idx_facts4 t).1]
    | ⟨1, _⟩ => show win0_4.index t 1 * 1 = 0; rw [(idx_facts4 t).2]
  exact (Memref.read_access_unit_zero (Elt Ideal) main_v18 hz' (fun a => by rw [congrFun hz' a]; simp) R).symm

/-- The one write-back, at the last step, writes the result. -/
theorem flushed_eq (c : Dev nD) (t : Fin cfg0.N) (hf : (cfg0.win 4).flush t = true) :
    (dats m 0 c).flushed 4 t = ((cfg0.win 4).blk t).view.read (Elt Ideal) (result m c) := by
  rw [flushed4, out_last_eq m c t ((flush0_4 t).mp hf)]
  exact cut_eq_read c t (result m c)

/-- So the result array ends holding it: the last step's block covers every row. -/
theorem final4 (c : Dev nD) : (dats m 0 c).arrAt 4 cfg0.N = result m c :=
  (dats m 0 c).arrAt_eq_of_cover 4 (result m c) (flushed_eq m c) fun i =>
    ⟨tLast, (flush0_4 tLast).mpr (by decide), by
      show i ∈ ((View.whole main_v18).slice (win0_4.rect tLast)).set
      rw [View.set_slice_whole, Rect.mem_set_unit]
      intro a
      have h0 : (i 0 : Nat) < 1024 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1024 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-- The run, read: the result array at `result`, the arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final4 m c), (h c).2⟩) (run_blocks m ρ)

end Cert.KernelIdeal.PoolAcc

end
-- ==== Proof.LibSegmentSum.lean ====
/-
  A segment sum read at one segment.

  The host's accumulating scatter with segment ids `ids : [N, 1]` adds update row `n` into row `ids n` of the
  operand, the id read as a signed integer; a row whose id is negative or at least the number of segments is
  dropped. So row `g` of the result is the operand's row `g` plus the sum, over all `n`, of update row `n` where
  `ids n = g` and of zero elsewhere. Stated for the two layouts a segment sum is printed in: updates and result as
  one-column matrices (`[N, 1]` into `[G, 1]`) and as flat vectors (`[N]` into `[G]`).
-/
import Idealize.ShloMosaic.PureOps.Ideal
import Idealize.ShloMosaic.Lib.ValueIdx

noncomputable section

open scoped BigOperators

namespace Cert.SegmentSum

open Idealize.ShloMosaic Idealize.ShloMosaic.ValueIdx

/-! ## One-column layout: `[N, 1]` rows into `[G, 1]` -/

/-- The dimension numbers of a column segment sum: operand `[G, 1]`, segment ids `[N, 1]`, updates `[N, 1]`. -/
abbrev colDims (G N : Nat) (wf : ScatterDims.WF ⟨2, ![G, 1]⟩ ⟨2, ![N, 1]⟩ ⟨2, ![N, 1]⟩ [1] [0] [0] 1) :
    ScatterDims ⟨2, ![G, 1]⟩ ⟨2, ![N, 1]⟩ ⟨2, ![N, 1]⟩ where
  updateWindowDims := [1]
  insertedWindowDims := [0]
  scatterDimsToOperandDims := [0]
  indexVectorDim := 1
  wf := wf

/-- On the row axis the window of update `j` starts at its segment id, read signed. -/
theorem col_start0 {G N w : Nat} (wf) (j : (⟨2, ![N, 1]⟩ : Shape).Idx) (idx : IVec ⟨2, ![N, 1]⟩ w) :
    (colDims G N wf).start j idx 0 = (idx (ix2 (j 0) 0)).toInt := by
  unfold ScatterDims.start
  rw [dif_pos (show (0 : Fin 2) ∈ (colDims G N wf).scatterDimsToOperandDims from List.mem_singleton.mpr rfl)]
  congr 2
  funext b
  refine Fin.ext ?_
  match b with
  | ⟨0, _⟩ => rfl
  | ⟨1, _⟩ => rfl

/-- On the column axis it starts at zero. -/
theorem col_start1 {G N w : Nat} (wf) (j : (⟨2, ![N, 1]⟩ : Shape).Idx) (idx : IVec ⟨2, ![N, 1]⟩ w) :
    (colDims G N wf).start j idx 1 = 0 := by
  unfold ScatterDims.start
  rw [dif_neg (show ¬ (1 : Fin 2) ∈ ([0] : List (Fin 2)) from by decide)]

/-- The row axis is inserted: no window coordinate there. -/
theorem col_window0 {G N : Nat} (wf) (j : (⟨2, ![N, 1]⟩ : Shape).Idx) :
    (colDims G N wf).window j 0 = 0 := by
  unfold ScatterDims.window
  have hk : (colDims G N wf).sKept = [1] := rfl
  rw [dif_neg (show ¬ (0 : Fin 2) ∈ (colDims G N wf).sKept from
    fun h => absurd (congrArg Fin.val (List.mem_singleton.mp (hk ▸ h))) Nat.zero_ne_one)]

/-- The column axis has extent one: its window coordinate is zero. -/
theorem col_window1 {G N : Nat} (wf) (j : (⟨2, ![N, 1]⟩ : Shape).Idx) :
    (colDims G N wf).window j 1 = 0 := by
  unfold ScatterDims.window
  split
  · exact Nat.lt_one_iff.mp (Fin.isLt _)
  · rfl

/-- Update row `j` lands on row `i` exactly when its segment id, read signed, is `i`'s row number. -/
theorem col_resultIdx {G N w : Nat} (wf) (j : (⟨2, ![N, 1]⟩ : Shape).Idx) (idx : IVec ⟨2, ![N, 1]⟩ w)
    (i : (⟨2, ![G, 1]⟩ : Shape).Idx) :
    (colDims G N wf).resultIdx? j idx = some i ↔ (idx (ix2 (j 0) 0)).toInt = ((i 0).val : Int) := by
  have hi0 : (i 0).val < G := (i 0).isLt
  have hi1 : (i 1).val = 0 := Nat.lt_one_iff.mp (i 1).isLt
  unfold ScatterDims.resultIdx?
  split
  · rename_i h
    have h0 := h 0
    rw [col_start0, col_window0] at h0
    constructor
    · intro e
      have e0 := congrArg (fun f => ((f 0 : Fin _) : Nat)) (Option.some.inj e)
      simp only [col_start0, col_window0] at e0
      omega
    · intro e
      congr 1
      funext a
      refine Fin.ext ?_
      match a with
      | ⟨0, _⟩ =>
        show ((colDims G N wf).start j idx 0 + ((colDims G N wf).window j 0 : Int)).toNat = (i 0).val
        rw [col_start0, col_window0]; omega
      | ⟨1, _⟩ =>
        show ((colDims G N wf).start j idx 1 + ((colDims G N wf).window j 1 : Int)).toNat = (i 1).val
        rw [col_start1, col_window1, hi1]; rfl
  · rename_i h
    constructor
    · intro e; exact absurd e (by simp)
    · intro e
      exfalso; apply h
      intro a
      match a with
      | ⟨0, _⟩ =>
        show 0 ≤ (colDims G N wf).start j idx 0 + ((colDims G N wf).window j 0 : Int) ∧
          (colDims G N wf).start j idx 0 + ((colDims G N wf).window j 0 : Int) < (G : Int)
        rw [col_start0, col_window0]; omega
      | ⟨1, _⟩ =>
        show 0 ≤ (colDims G N wf).start j idx 1 + ((colDims G N wf).window j 1 : Int) ∧
          (colDims G N wf).start j idx 1 + ((colDims G N wf).window j 1 : Int) < (1 : Int)
        rw [col_start1, col_window1]; omega

/-- THE COLUMN SEGMENT SUM AT A ROW: the operand's entry plus the updates of the rows whose id is that row. -/
theorem col_apply {G N w : Nat} (wf) (x : (⟨2, ![G, 1]⟩ : Shape).Idx → EReal) (idx : IVec ⟨2, ![N, 1]⟩ w)
    (upd : (⟨2, ![N, 1]⟩ : Shape).Idx → EReal) (i : (⟨2, ![G, 1]⟩ : Shape).Idx) :
    Ideal.hostScatterAdd (colDims G N wf) x idx upd i
      = x i + ∑ n : Fin N, if (idx (ix2 n 0)).toInt = ((i 0).val : Int) then upd (ix2 n 0) else 0 := by
  unfold Ideal.hostScatterAdd
  congr 1
  rw [Finset.sum_filter, sum_idx2]
  refine Finset.sum_congr rfl fun n _ => ?_
  rw [Fintype.sum_unique]
  have hd : (default : Fin 1) = 0 := rfl
  rw [hd]
  by_cases h : (idx (ix2 n 0)).toInt = ((i 0).val : Int)
  · rw [if_pos ((col_resultIdx wf (ix2 n 0) idx i).mpr h), if_pos h]
  · rw [if_neg (fun e => h ((col_resultIdx wf (ix2 n 0) idx i).mp e)), if_neg h]

/-! ## Flat layout: `[N]` entries into `[G]` -/

/-- The dimension numbers of a flat segment sum: operand `[G]`, segment ids `[N, 1]`, updates `[N]`. -/
abbrev flatDims (G N : Nat) (wf : ScatterDims.WF ⟨1, ![G]⟩ ⟨2, ![N, 1]⟩ ⟨1, ![N]⟩ [] [0] [0] 1) :
    ScatterDims ⟨1, ![G]⟩ ⟨2, ![N, 1]⟩ ⟨1, ![N]⟩ where
  updateWindowDims := []
  insertedWindowDims := [0]
  scatterDimsToOperandDims := [0]
  indexVectorDim := 1
  wf := wf

/-- The window of update `j` starts at its segment id, read signed. -/
theorem flat_start0 {G N w : Nat} (wf) (j : (⟨1, ![N]⟩ : Shape).Idx) (idx : IVec ⟨2, ![N, 1]⟩ w) :
    (flatDims G N wf).start j idx 0 = (idx (ix2 (j 0) 0)).toInt := by
  unfold ScatterDims.start
  rw [dif_pos (show (0 : Fin 1) ∈ (flatDims G N wf).scatterDimsToOperandDims from List.mem_singleton.mpr rfl)]
  congr 2
  funext b
  refine Fin.ext ?_
  match b with
  | ⟨0, _⟩ => rfl
  | ⟨1, _⟩ => rfl

/-- The one axis is inserted: no window coordinate. -/
theorem flat_window0 {G N : Nat} (wf) (j : (⟨1, ![N]⟩ : Shape).Idx) :
    (flatDims G N wf).window j 0 = 0 := by
  unfold ScatterDims.window
  have hk : (flatDims G N wf).sKept = [] := rfl
  rw [dif_neg (show ¬ (0 : Fin 1) ∈ (flatDims G N wf).sKept from fun h => absurd (hk ▸ h) List.not_mem_nil)]

/-- Update `j` lands on entry `i` exactly when its segment id, read signed, is `i`. -/
theorem flat_resultIdx {G N w : Nat} (wf) (j : (⟨1, ![N]⟩ : Shape).Idx) (idx : IVec ⟨2, ![N, 1]⟩ w)
    (i : (⟨1, ![G]⟩ : Shape).Idx) :
    (flatDims G N wf).resultIdx? j idx = some i ↔ (idx (ix2 (j 0) 0)).toInt = ((i 0).val : Int) := by
  have hi0 : (i 0).val < G := (i 0).isLt
  unfold ScatterDims.resultIdx?
  split
  · rename_i h
    have h0 := h 0
    rw [flat_start0, flat_window0] at h0
    constructor
    · intro e
      have e0 := congrArg (fun f => ((f 0 : Fin _) : Nat)) (Option.some.inj e)
      simp only [flat_start0, flat_window0] at e0
      omega
    · intro e
      congr 1
      funext a
      refine Fin.ext ?_
      match a with
      | ⟨0, _⟩ =>
        show ((flatDims G N wf).start j idx 0 + ((flatDims G N wf).window j 0 : Int)).toNat = (i 0).val
        rw [flat_start0, flat_window0]; omega
  · rename_i h
    constructor
    · intro e; exact absurd e (by simp)
    · intro e
      exfalso; apply h
      intro a
      match a with
      | ⟨0, _⟩ =>
        show 0 ≤ (flatDims G N wf).start j idx 0 + ((flatDims G N wf).window j 0 : Int) ∧
          (flatDims G N wf).start j idx 0 + ((flatDims G N wf).window j 0 : Int) < (G : Int)
        rw [flat_start0, flat_window0]; omega

/-- THE FLAT SEGMENT SUM AT AN ENTRY: the operand's entry plus the updates whose id is that entry. -/
theorem flat_apply {G N w : Nat} (wf) (x : (⟨1, ![G]⟩ : Shape).Idx → EReal) (idx : IVec ⟨2, ![N, 1]⟩ w)
    (upd : (⟨1, ![N]⟩ : Shape).Idx → EReal) (i : (⟨1, ![G]⟩ : Shape).Idx) :
    Ideal.hostScatterAdd (flatDims G N wf) x idx upd i
      = x i + ∑ n : Fin N, if (idx (ix2 n 0)).toInt = ((i 0).val : Int) then upd (ix1 n) else 0 := by
  unfold Ideal.hostScatterAdd
  congr 1
  rw [Finset.sum_filter]
  have hs : ∀ f : (⟨1, ![N]⟩ : Shape).Idx → EReal, ∑ j, f j = ∑ n : Fin N, f (ix1 n) := fun f =>
    (Equiv.sum_comp (⟨fun n => ix1 n, fun j => j 0, fun _ => rfl, fun j => (eq_ix1 j).symm⟩ :
      Fin N ≃ (⟨1, ![N]⟩ : Shape).Idx) f).symm
  rw [hs]
  refine Finset.sum_congr rfl fun n _ => ?_
  by_cases h : (idx (ix2 n 0)).toInt = ((i 0).val : Int)
  · rw [if_pos ((flat_resultIdx wf (ix1 n) idx i).mpr h), if_pos h]
  · rw [if_neg (fun e => h ((flat_resultIdx wf (ix1 n) idx i).mp e)), if_neg h]

end Cert.SegmentSum

end
-- ==== Proof.RefValue.lean ====
/-
  The reference's result, read at a row: it is the pooled output of that segment.

  The reference rectifies the node values, sums them into segments with one accumulating scatter (an update row per
  node, its segment id the node's graph id), counts each segment's nodes with a second scatter of ones, divides the sum
  by the count (at least one), multiplies by the single weight through a contraction over an axis of length one, and
  adds the bias. Each scatter is the segment sum of its updates; the contraction over one index is its single product.
  The node values themselves (a gather of the inputs summed along the edges) stay an unopened function of the
  arguments: the other program computes them by the same operations.
-/
import proofs.«412733_j24945170055652_1_alg».proof.Proof.Gen.ReferenceIdeal.Read
import proofs.«412733_j24945170055652_1_alg».proof.Proof.LibSegmentSum
import proofs.«412733_j24945170055652_1_alg».proof.Proof.PoolSpec

noncomputable section

open scoped BigOperators

namespace Cert.ReferenceIdeal.RefValue

open Cert.ReferenceIdeal Cert.ReferenceIdeal.Read Idealize.ShloMosaic Idealize.ShloMosaic.ValueIdx Cert.Pool

/-- The word `0x3F800000` is the real number one. -/
theorem one_f32 : Ideal.ofBits .f32 0x3F800000#32 = 1 := by
  simp [Ideal.ofBits, Ideal.ieee, -EReal.coe_mul]; norm_num

/-- On the extended reals the host's accumulating scatter is the exact one. -/
theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

/-- The two scatters' dimension numbers are those of a column and of a flat segment sum. -/
theorem sumDims_eq : scatter_S1024x1_S1000000x1_S1000000x1_1_0_0_1
    = SegmentSum.colDims 1024 1000000 Facts₀.scatter_S1024x1_S1000000x1_S1000000x1_1_0_0_1_wf := rfl
theorem countDims_eq : scatter_S1024_S1000000x1_S1000000_n_0_0_1
    = SegmentSum.flatDims 1024 1000000 Facts₀.scatter_S1024_S1000000x1_S1000000_n_0_0_1_wf := rfl

/-- The node values: edge-aggregated inputs, as the reference's own term of the arguments. -/
abbrev nodes (x0 : (⟨S1000000x1, .f32⟩ : BufTy).Contents (Elt Ideal)) (x3 : (⟨S2x32000000, .i32⟩ : BufTy).Contents (Elt Ideal))
    (n : Fin 1000000) : EReal := val_main_v13 (F := Ideal) x0 x3 (ix2 n 0)

/-- The graph id of node `n`. -/
abbrev gid (x4 : (⟨S1000000, .i32⟩ : BufTy).Contents (Elt Ideal)) (n : Fin 1000000) : BitVec 32 := x4 (ix1 n)

/-- The segment sums of the rectified node values. -/
theorem sums_apply (x0 : (⟨S1000000x1, .f32⟩ : BufTy).Contents (Elt Ideal)) (x3 : (⟨S2x32000000, .i32⟩ : BufTy).Contents (Elt Ideal))
    (x4 : (⟨S1000000, .i32⟩ : BufTy).Contents (Elt Ideal)) (g : Fin 1024) :
    val_main_v17 (F := Ideal) x0 x3 x4 (ix2 g 0) = segSum (gid x4) (fun n => max (nodes x0 x3 n) 0) g.val := by
  unfold val_main_v17
  rw [scatterAdd_ideal, sumDims_eq, SegmentSum.col_apply, val_main_v15_apply, val_main_cst_1_apply, Ideal.ofBits_def,
    Ideal.ofBits_zero_f32, zero_add]
  unfold segSum pick
  refine Finset.sum_congr rfl fun n _ => ?_
  have hi : idx_main_v16 (ix2 n 0) = ix1 n := funext fun a => Fin.ext (by match a with | ⟨0, _⟩ => rfl)
  rw [val_main_v16_apply, hi, val_main_v14_apply, val_main_call0_v0_apply, val_main_call0_cst_apply, Ideal.ofBits_def,
    Ideal.ofBits_zero_f32, Ideal.maximumf_def]

/-- The segment counts. -/
theorem counts_apply (x4 : (⟨S1000000, .i32⟩ : BufTy).Contents (Elt Ideal)) (g : Fin 1024) :
    val_main_v21 (F := Ideal) x4 (ix1 g) = segSum (gid x4) (fun _ => 1) g.val := by
  unfold val_main_v21
  rw [scatterAdd_ideal, countDims_eq, SegmentSum.flat_apply, val_main_v19_apply, val_main_cst_3_apply, Ideal.ofBits_def,
    Ideal.ofBits_zero_f32, zero_add]
  unfold segSum pick
  refine Finset.sum_congr rfl fun n _ => ?_
  have hi : idx_main_v20 (ix2 n 0) = ix1 n := funext fun a => Fin.ext (by match a with | ⟨0, _⟩ => rfl)
  rw [val_main_v20_apply, hi, val_main_v18_apply, val_main_cst_2_apply, Ideal.ofBits_def, one_f32]

/-- THE REFERENCE'S RESULT at row `g`: the pooled output of segment `g` over the million nodes. -/
theorem result_apply (x0 : (⟨S1000000x1, .f32⟩ : BufTy).Contents (Elt Ideal)) (x1 : (⟨S1x1, .f32⟩ : BufTy).Contents (Elt Ideal))
    (x2 : (⟨S1, .f32⟩ : BufTy).Contents (Elt Ideal)) (x3 : (⟨S2x32000000, .i32⟩ : BufTy).Contents (Elt Ideal))
    (x4 : (⟨S1000000, .i32⟩ : BufTy).Contents (Elt Ideal)) (g : Fin 1024) :
    val_main_v30 (F := Ideal) x0 x1 x2 x3 x4 (ix2 g 0)
      = pooled (gid x4) (nodes x0 x3) (x1 (ix2 0 0)) (x2 (ix1 0)) g.val := by
  have hl : lidx_main_v27 (ix2 g 0) 0 = ix2 g 0 := funext fun a => Fin.ext (by match a with | ⟨0, _⟩ => rfl | ⟨1, _⟩ => rfl)
  have hr : idx_main_v26 (ridx_main_v27 (ix2 g 0) 0) = ix2 0 0 :=
    funext fun a => Fin.ext (by match a with | ⟨0, _⟩ => rfl | ⟨1, _⟩ => rfl)
  have h24 : idx_main_v24 (ix2 g 0) = ix1 g := funext fun a => Fin.ext (by match a with | ⟨0, _⟩ => rfl)
  have h28 : idx_main_v28 (idx_main_v29 (ix2 g 0)) = ix1 0 := funext fun a => Fin.ext (by match a with | ⟨0, _⟩ => rfl)
  rw [val_main_v30_apply, val_main_v27_apply, Fin.sum_univ_one, hl, val_main_v26_apply, hr, val_main_v25_apply,
    val_main_v24_apply, h24, val_main_v23_apply, val_main_v22_apply, val_main_cst_4_apply, val_main_v29_apply,
    val_main_v28_apply, h28, sums_apply, counts_apply, Ideal.ofBits_def, one_f32, Ideal.hostDivf_def, Ideal.maximumf_def,
    Ideal.addf_def]
  unfold pooled
  rfl

end Cert.ReferenceIdeal.RefValue

end
-- ==== Proof.PoolBridge.lean ====
/-
  The kernel's result, read at a row: it is the pooled output of that segment.

  Row `r` of block `t` of a padded array is its row `r + 1024 · t`; below row 1000000 the padded node values and graph
  ids are the unpadded ones, and from there on the ids are `-1`. The accumulated column sums over the 977 blocks of
  1024 rows are therefore the segment sums over the 1000448 padded rows, which are the segment sums over the million
  nodes: the padding rows belong to no segment. The weight and bias blocks are the `1 × 1` weight and the bias.
-/
import proofs.«412733_j24945170055652_1_alg».proof.Proof.PoolAcc
import proofs.«412733_j24945170055652_1_alg».proof.Proof.PoolHost
import proofs.«412733_j24945170055652_1_alg».proof.Proof.RefValue
import Idealize.ShloMosaic.Lib.KernelVsHost

noncomputable section

open scoped BigOperators

namespace Cert.KernelIdeal.PoolBridge

open Cert.KernelIdeal Cert.KernelIdeal.Gen Cert.KernelIdeal.Value Idealize.ShloMosaic Idealize.ShloMosaic.TcCoe Idealize.SL.Sem
open Idealize.ShloMosaic.ValueIdx Cert.Pool Cert.KernelIdeal.PoolAcc

variable (m : (ℓ : Loc nD τ sig) → Buf (Elt Ideal) ℓ)

/-! ## Where the blocks sit in their arrays -/

theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_facts1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- The padded row that is row `r` of block `t`. -/
abbrev rowOf (t : Fin cfg0.N) (r : Fin 1024) : Fin 1000448 :=
  ⟨r.val + 1024 * t.val, by have := t.isLt; have hN : cfg0.N = 977 := N_0; have := r.isLt; omega⟩

/-- The padded node values and graph ids, by row. -/
abbrev nodesP (c : Dev nD) (n : Fin 1000448) : EReal := (V m c main_v14 : S1000448x1.Idx → EReal) (ix2 n 0)
abbrev idsP (c : Dev nD) (n : Fin 1000448) : BitVec 32 := (V m c main_v16 : S1000448x1.Idx → BitVec 32) (ix2 n 0)

theorem ablk_apply (c : Dev nD) (t : Fin cfg0.N) (r : Fin 1024) : ablk m c t (ix2 r 0) = nodesP m c (rowOf t r) := by
  show iblk m c 0 t (ix2 r 0) = _
  unfold iblk
  rw [View.read_apply]
  show V m c main_v14 _ = V m c main_v14 _
  refine congrArg (V m c main_v14) (funext fun a => Fin.ext ?_)
  match a with
  | ⟨0, _⟩ => show win0_0.index t 0 * 1024 + 1 * r.val = r.val + 1024 * t.val; rw [(idx_facts0 t).1]; omega
  | ⟨1, _⟩ => show win0_0.index t 1 * 1 + 1 * 0 = 0; rw [(idx_facts0 t).2]

theorem gblk_apply (c : Dev nD) (t : Fin cfg0.N) (r : Fin 1024) : gblk m c t (ix2 r 0) = idsP m c (rowOf t r) := by
  show iblk m c 1 t (ix2 r 0) = _
  unfold iblk
  rw [View.read_apply]
  show V m c main_v16 _ = V m c main_v16 _
  refine congrArg (V m c main_v16) (funext fun a => Fin.ext ?_)
  match a with
  | ⟨0, _⟩ => show win0_1.index t 0 * 1024 + 1 * r.val = r.val + 1024 * t.val; rw [(idx_facts1 t).1]; omega
  | ⟨1, _⟩ => show win0_1.index t 1 * 1 + 1 * 0 = 0; rw [(idx_facts1 t).2]

/-! ## The padded arrays at a row -/

/-- The node values of the arguments, as the other program spells them. -/
abbrev nodes (c : Dev nD) : Fin 1000000 → EReal :=
  Cert.ReferenceIdeal.RefValue.nodes (m ((c : Thread nD τ).loc main_arg0)) (m ((c : Thread nD τ).loc main_arg3))
/-- The graph ids of the arguments. -/
abbrev gid (c : Dev nD) : Fin 1000000 → BitVec 32 := Cert.ReferenceIdeal.RefValue.gid (m ((c : Thread nD τ).loc main_arg4))

theorem nodesP_inside (c : Dev nD) (n : Fin 1000448) (h : n.val < 1000000) : nodesP m c n = nodes m c ⟨n.val, h⟩ := by
  show (V m c main_v14 : S1000448x1.Idx → EReal) (ix2 n 0) = _
  rw [PoolHost.V_v14]
  exact pad_apply_of_inside _ _ _ _ _ _ _ (ix2 n 0) (ix2 (⟨n.val, h⟩ : Fin 1000000) 0) (fun a => by
    match a with
    | ⟨0, _⟩ => show n.val = 0 + n.val * (0 + 1); omega
    | ⟨1, _⟩ => show 0 = 0 + 0 * (0 + 1); rfl)

theorem idsP_inside (c : Dev nD) (n : Fin 1000448) (h : n.val < 1000000) : idsP m c n = gid m c ⟨n.val, h⟩ := by
  show (V m c main_v16 : S1000448x1.Idx → BitVec 32) (ix2 n 0) = _
  rw [PoolHost.V_v16,
    pad_apply_of_inside _ _ _ _ _ _ _ (ix2 n 0) (ix2 (⟨n.val, h⟩ : Fin 1000000) 0) (fun a => by
      match a with
      | ⟨0, _⟩ => show n.val = 0 + n.val * (0 + 1); omega
      | ⟨1, _⟩ => show 0 = 0 + 0 * (0 + 1); rfl)]
  exact shapeCast_apply _ shapeCasts_S1000000_S1000000x1 (ix2 (⟨n.val, h⟩ : Fin 1000000) 0) (ix1 (⟨n.val, h⟩ : Fin 1000000))
    (by rw [Shape.rowMajor_val_two, Shape.rowMajor_val_one]; show n.val = n.val * 1 + 0; omega)

theorem idsP_outside (c : Dev nD) (n : Fin 1000448) (h : 1000000 ≤ n.val) : idsP m c n = 4294967295#32 := by
  show (V m c main_v16 : S1000448x1.Idx → BitVec 32) (ix2 n 0) = _
  rw [PoolHost.V_v16,
    pad_apply_of_not_inside _ _ _ _ _ _ _ (ix2 n 0) (0 : Fin 2) (by
      show ¬(0 ≤ n.val ∧ (n.val - 0) % (0 + 1) = 0 ∧ (n.val - 0) / (0 + 1) < 1000000)
      omega)]
  rfl

/-! ## The accumulated columns are the segment sums -/

/-- The accumulated column 0 at graph `g` over all 977 blocks is the segment sum of the rectified values over the
    padded rows; -/
theorem total_apply0 (c : Dev nD) (g : Fin 1024) :
    total m c (ix2 g 0) = segSum (idsP m c) (fun n => max (nodesP m c n) 0) g.val := by
  have hN : cfg0.N = 977 := N_0
  unfold total
  simp only [Nat.zero_add]
  rw [zero_add, segSum_blocks' (S := 977) (R := 1024) (by decide) (idsP m c) _ g.val, Finset.sum_range]
  refine Finset.sum_congr rfl fun s _ => ?_
  have hs : s.val < cfg0.N := by have := s.isLt; omega
  unfold blockAdd
  rw [dif_pos hs]
  unfold addend
  refine Finset.sum_congr rfl fun r _ => ?_
  rw [gblk_apply, ablk_apply, if_pos (show ((ix2 g (0 : Fin 2)) 1).val = 0 from rfl)]

/-- column 1 is the segment count. -/
theorem total_apply1 (c : Dev nD) (g : Fin 1024) :
    total m c (ix2 g 1) = segSum (idsP m c) (fun _ => 1) g.val := by
  have hN : cfg0.N = 977 := N_0
  unfold total
  simp only [Nat.zero_add]
  rw [zero_add, segSum_blocks' (S := 977) (R := 1024) (by decide) (idsP m c) _ g.val, Finset.sum_range]
  refine Finset.sum_congr rfl fun s _ => ?_
  have hs : s.val < cfg0.N := by have := s.isLt; omega
  unfold blockAdd
  rw [dif_pos hs]
  unfold addend
  refine Finset.sum_congr rfl fun r _ => ?_
  rw [gblk_apply, if_neg (show ¬((ix2 g (1 : Fin 2)) 1).val = 0 from Nat.one_ne_zero)]

/-- The padding rows belong to no segment. -/
theorem segSum_unpad (c : Dev nD) (v : Fin 1000448 → EReal) (g : Nat) :
    segSum (idsP m c) v g = segSum (gid m c) (fun n : Fin 1000000 => v ⟨n.val, by have := n.isLt; omega⟩) g := by
  rw [segSum_append' (N := 1000000) (P := 448) (by decide) (idsP m c) v g (fun n hn => idsP_outside m c n hn)]
  unfold segSum
  refine Finset.sum_congr rfl fun n _ => ?_
  dsimp only
  rw [idsP_inside m c ⟨n.val, by have := n.isLt; omega⟩ n.isLt]

/-- THE KERNEL'S RESULT at row `g`: the pooled output of segment `g` over the million nodes. -/
theorem result_apply (c : Dev nD) (g : Fin 1024) :
    (result m c : S1024x1.Idx → EReal) (ix2 g 0) = pooled (gid m c) (nodes m c) (weight m c) (bias m c) g.val := by
  have h0 : total m c (ix2 g 0) = segSum (gid m c) (fun n => max (nodes m c n) 0) g.val := by
    rw [total_apply0, segSum_unpad]
    unfold segSum
    refine Finset.sum_congr rfl fun n _ => ?_
    dsimp only
    rw [nodesP_inside m c ⟨n.val, by have := n.isLt; omega⟩ n.isLt]
  have h1 : total m c (ix2 g 1) = segSum (gid m c) (fun _ => 1) g.val := by
    rw [total_apply1, segSum_unpad]
  show Ideal.div (total m c (ix2 g 0)) (max (total m c (ix2 g 1)) 1) * weight m c + bias m c = _
  rw [h0, h1]
  unfold pooled
  rfl

end Cert.KernelIdeal.PoolBridge

end
-- ==== Proof.lean ====
/-
  The certificate's five claims.

  Both programs first compute the node values `agg` — the inputs gathered along the edges and summed at each edge's
  target node — by the same operations, and then pool them: graph `g`'s output is

      (∑_{batch n = g} max (agg n) 0) / max (#{n | batch n = g}) 1 · W + b.

  The kernel pads nodes and graph ids to 977 blocks of 1024 rows (ids `-1` on the padding), accumulates per block the
  product of a one-hot node-to-graph matrix with `[max agg 0 | 1]`, and divides, scales and shifts at the last block;
  the reference uses two segment sums, a division, a contraction over an axis of length one and an addition. On the
  extended reals both are the function `Pool.pooled` of the arguments, row by row: addition there is commutative and
  associative, `0 · x = 0` and `1 · x = x`, and nothing else of arithmetic is used, so the inputs' finiteness is not.
  The three frames are the generated runs; the idealization rewrote nothing.
-/
import proofs.«412733_j24945170055652_1_alg».proof.Defs
import proofs.«412733_j24945170055652_1_alg».proof.Proof.Gen.Kernel
import proofs.«412733_j24945170055652_1_alg».proof.Proof.Gen.Kernel.Skeleton
import proofs.«412733_j24945170055652_1_alg».proof.Proof.Gen.Kernel.Launch
import proofs.«412733_j24945170055652_1_alg».proof.Proof.Gen.Kernel.Points
import proofs.«412733_j24945170055652_1_alg».proof.Proof.Gen.Kernel.Frame
import proofs.«412733_j24945170055652_1_alg».proof.Proof.Gen.KernelIdeal
import proofs.«412733_j24945170055652_1_alg».proof.Proof.Gen.KernelIdeal.Skeleton
import proofs.«412733_j24945170055652_1_alg».proof.Proof.Gen.KernelIdeal.Launch
import proofs.«412733_j24945170055652_1_alg».proof.Proof.Gen.KernelIdeal.Points
import proofs.«412733_j24945170055652_1_alg».proof.Proof.Gen.KernelIdeal.Frame
import proofs.«412733_j24945170055652_1_alg».proof.Proof.Gen.ReferenceIdeal
import proofs.«412733_j24945170055652_1_alg».proof.Proof.Gen.Pre_finite_inputs
import proofs.«412733_j24945170055652_1_alg».proof.Proof.Gen.KernelIdeal.Value
import proofs.«412733_j24945170055652_1_alg».proof.Proof.Gen.ReferenceIdeal.Run
import proofs.«412733_j24945170055652_1_alg».proof.Proof.Gen.ReferenceIdeal.Read
import proofs.«412733_j24945170055652_1_alg».proof.Proof.PoolBridge
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at the pooled outputs of its arguments (the accumulated blocks, the padding
    removed), the reference's at the pooled outputs of its own; the arguments agree. -/
theorem algebraic : Cert.algebraic_KernelIdeal_ReferenceIdeal := by
  intro m ρ m' ρ' _ hagree
  refine ⟨fun c => Cert.KernelIdeal.PoolAcc.result m c, Cert.KernelIdeal.PoolAcc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq]
  funext i
  obtain ⟨g, z, rfl⟩ : ∃ (g : Fin 1024) (z : Fin 1), i = ix2 g z := ⟨i 0, i 1, eq_ix2 i⟩
  obtain rfl : z = 0 := Subsingleton.elim _ _
  rw [Cert.ReferenceIdeal.RefValue.result_apply, (hagree c).1, (hagree c).2.1, (hagree c).2.2.1, (hagree c).2.2.2.1,
    (hagree c).2.2.2.2]
  exact (Cert.KernelIdeal.PoolBridge.result_apply m c g).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
